-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x4096x1024 .f32) (main_arg1 : FVec F S3072x1024 .f32) (main_arg2 : FVec F S1024x1024 .f32) (main_arg3 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S16384x1024 : Shape := ⟨2, ![16384, 1024]⟩
abbrev S16384x3072 : Shape := ⟨2, ![16384, 3072]⟩
abbrev S512x1024 : Shape := ⟨2, ![512, 1024]⟩
abbrev S4x4096x3072 : Shape := ⟨3, ![4, 4096, 3072]⟩
abbrev S4x16x4096x64 : Shape := ⟨4, ![4, 16, 4096, 64]⟩
abbrev S4x4096x16x64 : Shape := ⟨4, ![4, 4096, 16, 64]⟩
abbrev S4x4096x16x16 : Shape := ⟨4, ![4, 4096, 16, 16]⟩
abbrev S_ : Shape := ⟨0, ![]⟩
abbrev S4x4096x16 : Shape := ⟨3, ![4, 4096, 16]⟩
abbrev S4x4096x16x1 : Shape := ⟨4, ![4, 4096, 16, 1]⟩
abbrev S1x1024 : Shape := ⟨2, ![1, 1024]⟩

abbrev nBuf : Space → Nat
  | .hbm => 41
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S16384x3072, .f32⟩
  | .hbm, ⟨6, _⟩ => ⟨S4x4096x3072, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x16x4096x64, .f32⟩
  | .hbm, ⟨11, _⟩ => ⟨S4x4096x16x64, .f32⟩
  | .hbm, ⟨12, _⟩ => ⟨S4x16x4096x64, .f32⟩
  | .hbm, ⟨13, _⟩ => ⟨S4x4096x16x64, .f32⟩
  | .hbm, ⟨14, _⟩ => ⟨S4x16x4096x64, .f32⟩
  | .hbm, ⟨15, _⟩ => ⟨S4x4096x16x64, .f32⟩
  | .hbm, ⟨16, _⟩ => ⟨S4x4096x16x16, .f32⟩
  | .hbm, ⟨17, _⟩ => ⟨S_, .f32⟩
  | .hbm, ⟨18, _⟩ => ⟨S4x4096x16x16, .f32⟩
  | .hbm, ⟨19, _⟩ => ⟨S4x4096x16x16, .f32⟩
  | .hbm, ⟨20, _⟩ => ⟨S_, .f32⟩
  | .hbm, ⟨21, _⟩ => ⟨S4x4096x16, .f32⟩
  | .hbm, ⟨22, _⟩ => ⟨S_, .f32⟩
  | .hbm, ⟨23, _⟩ => ⟨S4x4096x16, .f32⟩
  | .hbm, ⟨24, _⟩ => ⟨S4x4096x16, .f32⟩
  | .hbm, ⟨25, _⟩ => ⟨S4x4096x16x1, .f32⟩
  | .hbm, ⟨26, _⟩ => ⟨S4x4096x16x16, .f32⟩
  | .hbm, ⟨27, _⟩ => ⟨S4x4096x16x16, .f32⟩
  | .hbm, ⟨28, _⟩ => ⟨S4x4096x16x16, .f32⟩
  | .hbm, ⟨29, _⟩ => ⟨S_, .f32⟩
  | .hbm, ⟨30, _⟩ => ⟨S4x4096x16, .f32⟩
  | .hbm, ⟨31, _⟩ => ⟨S4x4096x16x1, .f32⟩
  | .hbm, ⟨32, _⟩ => ⟨S4x4096x16x16, .f32⟩
  | .hbm, ⟨33, _⟩ => ⟨S4x4096x16x16, .f32⟩
  | .hbm, ⟨34, _⟩ => ⟨S4x4096x16x64, .f32⟩
  | .hbm, ⟨35, _⟩ => ⟨S4x16x4096x64, .f32⟩
  | .hbm, ⟨36, _⟩ => ⟨S4x4096x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x4096x1024_S16384x1024 : S4x4096x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S16384x3072_S4x4096x3072 : S16384x3072.ShapeCasts S4x4096x3072
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  shapeCasts_S4x4096x1024_S4x16x4096x64 : S4x4096x1024.ShapeCasts S4x16x4096x64
  transposes_S4x16x4096x64_S4x4096x16x64_0_2_1_3 : S4x16x4096x64.Transposes [0, 2, 1, 3] S4x4096x16x64
  bcast_S_S4x4096x16x16 : S_.BroadcastsInDim S4x4096x16x16 (![] : Fin 0 → Fin S4x4096x16x16.rank)
  reducesTo_S4x4096x16x16_S4x4096x16_d3 : S4x4096x16x16.ReducesTo [3] S4x4096x16
  h_S_ : 0 < S_.numel
  bcast_S_S4x4096x16 : S_.BroadcastsInDim S4x4096x16 (![] : Fin 0 → Fin S4x4096x16.rank)
  bcast_S4x4096x16_S4x4096x16x1_0_1_2 : S4x4096x16.BroadcastsInDim S4x4096x16x1 (![0, 1, 2] : Fin 3 → Fin S4x4096x16x1.rank)
  bcast_S4x4096x16x1_S4x4096x16x16_0_1_2_3 : S4x4096x16x1.BroadcastsInDim S4x4096x16x16 (![0, 1, 2, 3] : Fin 4 → Fin S4x4096x16x16.rank)
  transposes_S4x4096x16x64_S4x16x4096x64_0_2_1_3 : S4x4096x16x64.Transposes [0, 2, 1, 3] S4x16x4096x64
  shapeCasts_S4x16x4096x64_S4x4096x1024 : S4x16x4096x64.ShapeCasts S4x4096x1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x1024_S4x4096x1024 : S16384x1024.ShapeCasts S4x4096x1024
  dot_S512x1024_S1024x1024_S512x1024_1_1_0_0_n_n_wf : DotDims.WF S512x1024 S1024x1024 S512x1024 [1] [1] [0] [0] [] []
  dot_S4x4096x16x64_S4x4096x16x64_S4x4096x16x16_3_3_2_2_01_01_wf : DotDims.WF S4x4096x16x64 S4x4096x16x64 S4x4096x16x16 [3] [3] [2] [2] [0, 1] [0, 1]
  dot_S4x4096x16x16_S4x4096x16x64_S4x4096x16x64_3_2_2_3_01_01_wf : DotDims.WF S4x4096x16x16 S4x4096x16x64 S4x4096x16x64 [3] [2] [2] [3] [0, 1] [0, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x1024.size a
  hwx0_1 : ∀ i : grid0.Coords, EltTy.bits .f32 = 32 ∨ (Rect.block (s := S3072x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x3072.size a
  hwx0_2 : ∀ i : grid0.Coords, EltTy.bits .f32 = 32 ∨ (Rect.block (s := S16384x3072) S512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .f32 = 32 ∨ (Rect.block (s := S16384x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S16384x1024.size a
  hwx1_3 : ∀ i : grid1.Coords, EltTy.bits .f32 = 32 ∨ (Rect.block (s := S16384x1024) S512x1024.size (cc1_transform_3 i) (hinb1_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S4x4096x16x64_S4x4096x16x64_S4x4096x16x16_3_3_2_2_01_01 : DotDims S4x4096x16x64 S4x4096x16x64 S4x4096x16x16 where
  lhsContracting := [3]
  rhsContracting := [3]
  lhsNonContracting := [2]
  rhsNonContracting := [2]
  lhsBatch := [0, 1]
  rhsBatch := [0, 1]
  wf := dot_S4x4096x16x64_S4x4096x16x64_S4x4096x16x16_3_3_2_2_01_01_wf
def dot_S4x4096x16x16_S4x4096x16x64_S4x4096x16x64_3_2_2_3_01_01 : DotDims S4x4096x16x16 S4x4096x16x64 S4x4096x16x64 where
  lhsContracting := [3]
  rhsContracting := [2]
  lhsNonContracting := [2]
  rhsNonContracting := [3]
  lhsBatch := [0, 1]
  rhsBatch := [0, 1]
  wf := dot_S4x4096x16x16_S4x4096x16x64_S4x4096x16x64_3_2_2_3_01_01_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S4x4096x3072 : Shape := ⟨3, ![4, 4096, 3072]⟩
abbrev S4x16x4096x64 : Shape := ⟨4, ![4, 16, 4096, 64]⟩
abbrev S4x4096x16x64 : Shape := ⟨4, ![4, 4096, 16, 64]⟩
abbrev S_ : Shape := ⟨0, ![]⟩
abbrev S4x4096x16x16 : Shape := ⟨4, ![4, 4096, 16, 16]⟩
abbrev S4x4096x16 : Shape := ⟨3, ![4, 4096, 16]⟩
abbrev S4x4096x16x1 : Shape := ⟨4, ![4, 4096, 16, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4x4096x3072, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x16x4096x64, .f32⟩
  | .hbm, ⟨9, _⟩ => ⟨S4x4096x16x64, .f32⟩
  | .hbm, ⟨10, _⟩ => ⟨S4x16x4096x64, .f32⟩
  | .hbm, ⟨11, _⟩ => ⟨S4x4096x16x64, .f32⟩
  | .hbm, ⟨12, _⟩ => ⟨S4x16x4096x64, .f32⟩
  | .hbm, ⟨13, _⟩ => ⟨S4x4096x16x64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4x4096x16x16, .f32⟩
  | .hbm, ⟨19, _⟩ => ⟨S4x4096x16x16, .f32⟩
  | .hbm, ⟨20, _⟩ => ⟨S4x4096x16x16, .f32⟩
  | .hbm, ⟨21, _⟩ => ⟨S_, .f32⟩
  | .hbm, ⟨22, _⟩ => ⟨S4x4096x16, .f32⟩
  | .hbm, ⟨23, _⟩ => ⟨S_, .f32⟩
  | .hbm, ⟨24, _⟩ => ⟨S4x4096x16, .f32⟩
  | .hbm, ⟨25, _⟩ => ⟨S4x4096x16, .f32⟩
  | .hbm, ⟨26, _⟩ => ⟨S4x4096x16x1, .f32⟩
  | .hbm, ⟨27, _⟩ => ⟨S4x4096x16x16, .f32⟩
  | .hbm, ⟨28, _⟩ => ⟨S4x4096x16x16, .f32⟩
  | .hbm, ⟨29, _⟩ => ⟨S4x4096x16x16, .f32⟩
  | .hbm, ⟨30, _⟩ => ⟨S_, .f32⟩
  | .hbm, ⟨31, _⟩ => ⟨S4x4096x16, .f32⟩
  | .hbm, ⟨32, _⟩ => ⟨S4x4096x16x1, .f32⟩
  | .hbm, ⟨33, _⟩ => ⟨S4x4096x16x16, .f32⟩
  | .hbm, ⟨34, _⟩ => ⟨S4x4096x16x16, .f32⟩
  | .hbm, ⟨35, _⟩ => ⟨S4x4096x16x64, .f32⟩
  | .hbm, ⟨36, _⟩ => ⟨S4x16x4096x64, .f32⟩
  | .hbm, ⟨37, _⟩ => ⟨S4x4096x1024, .f32⟩
  | .hbm, ⟨38, _⟩ => ⟨S4x4096x1024, .f32⟩
  | .hbm, ⟨39, _⟩ => ⟨S1x1x1024, .f32⟩
  | .hbm, ⟨40, _⟩ => ⟨S4x4096x1024, .f32⟩
  | .hbm, ⟨41, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  shapeCasts_S4x4096x1024_S4x16x4096x64 : S4x4096x1024.ShapeCasts S4x16x4096x64
  transposes_S4x16x4096x64_S4x4096x16x64_0_2_1_3 : S4x16x4096x64.Transposes [0, 2, 1, 3] S4x4096x16x64
  bcast_S_S4x4096x16x16 : S_.BroadcastsInDim S4x4096x16x16 (![] : Fin 0 → Fin S4x4096x16x16.rank)
  reducesTo_S4x4096x16x16_S4x4096x16_d3 : S4x4096x16x16.ReducesTo [3] S4x4096x16
  h_S_ : 0 < S_.numel
  bcast_S_S4x4096x16 : S_.BroadcastsInDim S4x4096x16 (![] : Fin 0 → Fin S4x4096x16.rank)
  bcast_S4x4096x16_S4x4096x16x1_0_1_2 : S4x4096x16.BroadcastsInDim S4x4096x16x1 (![0, 1, 2] : Fin 3 → Fin S4x4096x16x1.rank)
  bcast_S4x4096x16x1_S4x4096x16x16_0_1_2_3 : S4x4096x16x1.BroadcastsInDim S4x4096x16x16 (![0, 1, 2, 3] : Fin 4 → Fin S4x4096x16x16.rank)
  transposes_S4x4096x16x64_S4x16x4096x64_0_2_1_3 : S4x4096x16x64.Transposes [0, 2, 1, 3] S4x16x4096x64
  shapeCasts_S4x16x4096x64_S4x4096x1024 : S4x16x4096x64.ShapeCasts S4x4096x1024
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S3072x1024_S4x4096x3072_2_1_01_0_n_n_wf : DotDims.WF S4x4096x1024 S3072x1024 S4x4096x3072 [2] [1] [0, 1] [0] [] []
  dot_S4x4096x16x64_S4x4096x16x64_S4x4096x16x16_3_3_2_2_01_01_wf : DotDims.WF S4x4096x16x64 S4x4096x16x64 S4x4096x16x16 [3] [3] [2] [2] [0, 1] [0, 1]
  dot_S4x4096x16x16_S4x4096x16x64_S4x4096x16x64_3_2_2_3_01_01_wf : DotDims.WF S4x4096x16x16 S4x4096x16x64 S4x4096x16x64 [3] [2] [2] [3] [0, 1] [0, 1]
  dot_S4x4096x1024_S1024x1024_S4x4096x1024_2_1_01_0_n_n_wf : DotDims.WF S4x4096x1024 S1024x1024 S4x4096x1024 [2] [1] [0, 1] [0] [] []

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x4096x16x64_S4x4096x16x64_S4x4096x16x16_3_3_2_2_01_01 : DotDims S4x4096x16x64 S4x4096x16x64 S4x4096x16x16 where
  lhsContracting := [3]
  rhsContracting := [3]
  lhsNonContracting := [2]
  rhsNonContracting := [2]
  lhsBatch := [0, 1]
  rhsBatch := [0, 1]
  wf := dot_S4x4096x16x64_S4x4096x16x64_S4x4096x16x16_3_3_2_2_01_01_wf
def dot_S4x4096x16x16_S4x4096x16x64_S4x4096x16x64_3_2_2_3_01_01 : DotDims S4x4096x16x16 S4x4096x16x64 S4x4096x16x64 where
  lhsContracting := [3]
  rhsContracting := [2]
  lhsNonContracting := [2]
  rhsNonContracting := [3]
  lhsBatch := [0, 1]
  rhsBatch := [0, 1]
  wf := dot_S4x4096x16x16_S4x4096x16x64_S4x4096x16x64_3_2_2_3_01_01_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.Spec.lean ====
/-
  The mathematics both programs compute, stated once over the extended reals.

  * `mmT a w` is the product of an `[M, K]` array with the transpose of an `[N, K]` array: entry `(r, s)` is the sum
    over `k` of `a[r, k] · w[s, k]`; `mmTb a w b` adds the row vector `b[0, s]` to every row of it.
  * The attention scale: the reference computes `1 / sqrt 64` where the kernel writes the literal `0.125`; on the
    extended reals the square root of `64` is `8` and the quotient `1 / 8` is that same dyadic number.
-/
import Idealize.ShloMosaic.PureOps.Ideal.Laws
import Idealize.ShloMosaic.Lib.ValueIdx

noncomputable section

open scoped BigOperators
open Idealize.ShloMosaic Idealize.ShloMosaic.ValueIdx

namespace Cert.Spec

/-- Rows times rows: `(a · wᵀ)[r, s] = Σ_k a[r, k] · w[s, k]`. -/
def mmT {M K N : Nat} (a : FVec Ideal ⟨2, ![M, K]⟩ .f32) (w : FVec Ideal ⟨2, ![N, K]⟩ .f32) : FVec Ideal ⟨2, ![M, N]⟩ .f32 :=
  fun i => ∑ k : Fin K, a (ix2 (n0 := M) (n1 := K) (i 0) k) * w (ix2 (n0 := N) (n1 := K) (i 1) k)

theorem mmT_apply {M K N : Nat} (a : FVec Ideal ⟨2, ![M, K]⟩ .f32) (w : FVec Ideal ⟨2, ![N, K]⟩ .f32) (r : Fin M) (s : Fin N) :
    mmT a w (ix2 r s) = ∑ k : Fin K, a (ix2 r k) * w (ix2 s k) := rfl

/-- The same with a bias row added: `(a · wᵀ)[r, s] + b[0, s]`. -/
def mmTb {M K N : Nat} (a : FVec Ideal ⟨2, ![M, K]⟩ .f32) (w : FVec Ideal ⟨2, ![N, K]⟩ .f32) (b : FVec Ideal ⟨2, ![1, N]⟩ .f32) :
    FVec Ideal ⟨2, ![M, N]⟩ .f32 :=
  fun i => mmT a w i + b (ix2 (n0 := 1) (n1 := N) (0 : Fin 1) (i 1))

theorem mmTb_apply {M K N : Nat} (a : FVec Ideal ⟨2, ![M, K]⟩ .f32) (w : FVec Ideal ⟨2, ![N, K]⟩ .f32) (b : FVec Ideal ⟨2, ![1, N]⟩ .f32)
    (r : Fin M) (s : Fin N) :
    mmTb a w b (ix2 r s) = (∑ k : Fin K, a (ix2 r k) * w (ix2 s k)) + b (ix2 (0 : Fin 1) s) := rfl

/-! ## The three float literals of the scale -/

/-- The pattern of `64.0` denotes the real `64`. -/
theorem ofBits_64 : Ideal.ofBits .f32 0x42800000#32 = ((64 : ℝ) : EReal) := by
  simp [Ideal.ofBits, Ideal.ieee, -EReal.coe_mul]; norm_num

/-- The pattern of `1.0` denotes `1`. -/
theorem ofBits_one : Ideal.ofBits .f32 0x3F800000#32 = ((1 : ℝ) : EReal) := by
  simp [Ideal.ofBits, Ideal.ieee, -EReal.coe_mul]; norm_num

/-- The pattern of `0.125` denotes the real `1 / 8`. -/
theorem ofBits_eighth : Ideal.ofBits .f32 0x3E000000#32 = ((1 / 8 : ℝ) : EReal) := by
  simp [Ideal.ofBits, Ideal.ieee, -EReal.coe_mul]; norm_num

/-- `sqrt 64 = 8` on the reals. -/
theorem sqrt_64 : Real.sqrt 64 = 8 := by
  rw [show (64 : ℝ) = 8 ^ 2 by norm_num]
  exact Real.sqrt_sq (by norm_num)

/-- The reference's scale `1 / sqrt 64`, computed on the host, is the kernel's literal `0.125`. -/
theorem scale_eq :
    Host.divf (constant (F := Ideal) ⟨0, ![]⟩ .f32 0x3F800000#32) (Host.sqrt (constant (F := Ideal) ⟨0, ![]⟩ .f32 0x42800000#32))
      = constant (F := Ideal) ⟨0, ![]⟩ .f32 0x3E000000#32 := by
  funext i
  show Ideal.div (Ideal.ofBits .f32 0x3F800000#32) (Ideal.sqrt (Ideal.ofBits .f32 0x42800000#32)) = Ideal.ofBits .f32 0x3E000000#32
  rw [ofBits_64, ofBits_one, ofBits_eighth, Ideal.sqrt_coe, if_neg (by norm_num), sqrt_64,
    Ideal.div_coe (by norm_num : (8 : ℝ) ≠ 0), ← EReal.coe_mul, one_mul]

end Cert.Spec

end
-- ==== Proof.LibMatmulTransposedRhs.lean ====
/-
  A matrix product against a transposed right operand, read at one entry, on the extended reals.

  For the dimension numbers of an `[M, K]` by `[N, K]` product (contract the last axis of both operands, no batch
  axis), the matrix unit's product accumulated into a zero block, and the host's `dot_general`, are both, at entry
  `(r, s)`, the sum over `k` of `lhs[r, k] · rhs[s, k]`: the contraction index has one coordinate, and the operand
  indices at `(r, s)` and `k` are `(r, k)` and `(s, k)`.
-/
import Idealize.ShloMosaic.PureOps.Ideal.Laws
import Idealize.ShloMosaic.Lib.ValueIdx

noncomputable section

open scoped BigOperators
open Idealize.ShloMosaic Idealize.ShloMosaic.ValueIdx

namespace Cert.MatmulTransposedRhs

variable {M K N : Nat}

/-- The left operand's index at output `(r, s)` and contraction coordinate `k` is `(r, k)`. -/
theorem lhsIdx_transposedRhs (r : Fin M) (s : Fin N) (k : Fin K) :
    (DotDims.transposedRhs M K N).lhsIdx (ix2 r s) ((contrEquiv1 (DotDims.transposedRhs M K N) K rfl rfl).symm k) = ix2 r k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 r s) _).trans hk

/-- The right operand's index there is `(s, k)`. -/
theorem rhsIdx_transposedRhs (r : Fin M) (s : Fin N) (k : Fin K) :
    (DotDims.transposedRhs M K N).rhsIdx (ix2 r s) ((contrEquiv1 (DotDims.transposedRhs M K N) K rfl rfl).symm k) = ix2 s k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 r s) _).trans hk

/-- The matrix unit's product into a zero accumulator, at entry `(r, s)`: `Σ_k lhs[r, k] · rhs[s, k]`. -/
theorem matmul_zero_apply {φ₁ φ₂ : FTy} (prec : Option ContractPrecision)
    (lhs : FVec Ideal ⟨2, ![M, K]⟩ φ₁) (rhs : FVec Ideal ⟨2, ![N, K]⟩ φ₂) (r : Fin M) (s : Fin N) :
    FloatOps.matmul (DotDims.transposedRhs M K N) prec lhs rhs (constant ⟨2, ![M, N]⟩ .f32 0x00000000#32) (ix2 r s)
      = ∑ k : Fin K, lhs (ix2 r k) * rhs (ix2 s k) := by
  rw [Ideal.matmul_constant_zero_apply, ← Equiv.sum_comp (contrEquiv1 (DotDims.transposedRhs M K N) K rfl rfl).symm]
  refine Finset.sum_congr rfl fun k _ => ?_
  rw [lhsIdx_transposedRhs, rhsIdx_transposedRhs]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (s : Fin N) :
    FloatOps.dotGeneral (DotDims.transposedRhs M K N) prec sched lhs rhs (ix2 r s)
      = ∑ k : Fin K, lhs (ix2 r k) * rhs (ix2 s k) := by
  rw [Ideal.dotGeneral_apply, ← Equiv.sum_comp (contrEquiv1 (DotDims.transposedRhs M K N) K rfl rfl).symm]
  refine Finset.sum_congr rfl fun k _ => ?_
  rw [lhsIdx_transposedRhs, rhsIdx_transposedRhs]

end Cert.MatmulTransposedRhs

end
-- ==== Proof.ProjBody.lean ====
/-
  The two kernel bodies as arithmetic. Each multiplies a `[512, 1024]` block of rows by the transpose of a
  `[1024, 1024]` block on the matrix unit into a zero block; the casts to the narrow float format are the identity on
  the extended reals and the same-shape cast is the identity, so entry `(p, q)` is `Σ_k x0[p, k] · x1[q, k]`. The second
  body adds the bias row, broadcast down the block's rows: `+ x2[0, q]`.
-/
import proofs.«167248_j4767413698818_1_alg».proof.Proof.Gen.KernelIdeal.Skeleton
import proofs.«167248_j4767413698818_1_alg».proof.Proof.LibMatmulTransposedRhs
import Idealize.ShloMosaic.Lib.Pipeline.Value

noncomputable section

namespace Cert.KernelIdeal.Proj

open Cert.KernelIdeal Cert.KernelIdeal.Gen Idealize.ShloMosaic
open Idealize.ShloMosaic.ValueIdx
open scoped BigOperators

theorem hz : (![0, 0] : Fin 2 → Nat) = fun _ => 0 := funext fun a => by fin_cases a <;> rfl

/-- The printed dimension numbers are those of a rows-by-rows product. -/
theorem dot_eq : dot_S512x1024_S1024x1024_S512x1024_1_1_0_0_n_n = DotDims.transposedRhs 512 1024 1024 := rfl

/-- The first body's payload at entry `(p, q)` of the block: `Σ_k x0[p, k] · x1[q, k]`. -/
theorem pay0_apply (x0 : Vec Ideal S512x1024 .f32) (x1 : Vec Ideal S1024x1024 .f32) (p : Fin 512) (q : Fin 1024) :
    k0_pay1 x0 x1 (ix2 p q) = ∑ k : Fin 1024, x0 (ix2 p k) * x1 (ix2 q k) := by
  unfold k0_pay1
  simp only [shapeCast_self]
  rw [dot_eq]
  exact Cert.MatmulTransposedRhs.matmul_zero_apply none x0 x1 p q

/-- The bias row broadcast down the block, at entry `(p, q)`, is the row's entry `q`. -/
theorem bias_apply (x2 : Vec Ideal S1x1024 .f32) (p : Fin 512) (q : Fin 1024) :
    broadcastTo S512x1024 x2 broadcasts_S1x1024_S512x1024 (ix2 p q) = x2 (ix2 (0 : Fin 1) q) :=
  broadcastTo_apply x2 broadcasts_S1x1024_S512x1024 (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-- The second body's payload at entry `(p, q)`: `Σ_k x0[p, k] · x1[q, k] + x2[0, q]`. -/
theorem pay1_apply (x0 : Vec Ideal S512x1024 .f32) (x1 : Vec Ideal S1024x1024 .f32) (x2 : Vec Ideal S1x1024 .f32) (p : Fin 512) (q : Fin 1024) :
    k1_pay1 x0 x1 x2 (ix2 p q) = (∑ k : Fin 1024, x0 (ix2 p k) * x1 (ix2 q k)) + x2 (ix2 (0 : Fin 1) q) := by
  unfold k1_pay1
  simp only [shapeCast_self]
  rw [addf_apply, bias_apply, dot_eq]
  exact congrArg (· + x2 (ix2 (0 : Fin 1) q)) (Cert.MatmulTransposedRhs.matmul_zero_apply none x0 x1 p q)

end Cert.KernelIdeal.Proj

end
-- ==== Proof.Region0.lean ====
/-
  The first projection, read as a value. At any contents `V` of the buffers when the region is entered, the array the
  `32 × 3` grid of points writes is the product of the `[16384, 1024]` operand with the transpose of the `[3072, 1024]`
  weight: point `(i, j)` loads rows `512·i …` of the operand and rows `1024·j …` of the weight whole along the
  contracted axis, multiplies them on the matrix unit into a zero block (the casts to the narrow float format change
  nothing on the extended reals), and writes block `(i, j)` of the result; the blocks tile the array.
-/
import proofs.«167248_j4767413698818_1_alg».proof.Proof.Gen.KernelIdeal.Frame
import proofs.«167248_j4767413698818_1_alg».proof.Proof.Spec
import proofs.«167248_j4767413698818_1_alg».proof.Proof.ProjBody

set_option maxRecDepth 16384

noncomputable section

namespace Cert.KernelIdeal.Proj

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The operand and the weight as the region finds them, at their literal types. -/
abbrev opnd0 (c : Dev nD) : FVec Ideal S16384x1024 .f32 := V c main_v0
abbrev wght0 (c : Dev nD) : FVec Ideal S3072x1024 .f32 := V c main_arg1

/-- The index maps over the 96 points: the operand's block row is the output's, the weight's block row is the output's
    block column, and neither input moves along the contracted axis. -/
theorem idx_facts0 : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

/-- Every block of the `32 × 3` tiling is some point's. -/
theorem idx_onto0 : ∀ (q0 : Fin 32) (q1 : Fin 3), ∃ t : Fin cfg0.N, win0_2.index t = ![q0.val, q1.val] :=
  (by decide +kernel : ∀ (q0 : Fin 32) (q1 : Fin 3), ∃ t : Fin grid0.N, win0_2.index t = ![q0.val, q1.val])

/-- What point `t` writes back is block `t` of the product of the two arrays as the region finds them. -/
theorem flushed0 (c : Dev nD) (t : Fin cfg0.N) :
    (dat0 V c).flushed 2 t = ((cfg0.win 2).blk t).view.read (Elt Ideal) (Cert.Spec.mmT (V c main_v0) (V c main_arg1)) := by
  show (cfg0.win 2).cut (grid0.coords t) ((dat0 V c).after 2 t) = _
  rw [after0_2]
  unfold out0_2
  rw [View.canon_unit_zero hz]
  simp only [View.ld_unit_zero (S := S512x1024) hz, View.ld_unit_zero (S := S1024x1024) hz]
  obtain ⟨e0, e1, e2, e3⟩ := idx_facts0 t
  funext j
  obtain ⟨p, q, rfl⟩ : ∃ (p : Fin 512) (q : Fin 1024), j = ix2 p q := ⟨j 0, j 1, eq_ix2 j⟩
  show k0_pay1 (iblk0 V c 0 t) (iblk0 V c 1 t) (ix2 p q) = Cert.Spec.mmT (V c main_v0) (V c main_arg1) (((cfg0.win 2).blk t).view.emb (ix2 p q))
  refine (pay0_apply _ _ p q).trans ?_
  unfold Cert.Spec.mmT
  refine Finset.sum_congr rfl fun k _ => ?_
  have h0 : ((cfg0.win 0).blk t).view.emb (ix2 p k) = ix2 (n0 := 16384) (n1 := 1024) ((((cfg0.win 2).blk t).view.emb (ix2 p q)) 0) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 1024 + 1 * k.val = k.val; omega
  have h1 : ((cfg0.win 1).blk t).view.emb (ix2 q k) = ix2 (n0 := 3072) (n1 := 1024) ((((cfg0.win 2).blk t).view.emb (ix2 p q)) 1) k := by
    funext a; apply Fin.ext
    match a with
    | ⟨0, _⟩ => show win0_1.index t (0 : Fin 2) * 1024 + 1 * q.val = win0_2.index t (1 : Fin 2) * 1024 + 1 * q.val; omega
    | ⟨1, _⟩ => show win0_1.index t (1 : Fin 2) * 1024 + 1 * k.val = k.val; omega
  show opnd0 V c (((cfg0.win 0).blk t).view.emb (ix2 p k)) * wght0 V c (((cfg0.win 1).blk t).view.emb (ix2 q k)) = opnd0 V c _ * wght0 V c _
  rw [h0, h1]

/-- An index of the result array is in point `t`'s block iff each coordinate is in the block's range. -/
theorem mem_blk0 (t : Fin cfg0.N) (i : S16384x3072.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v1).slice (win0_2.rect t)).set ↔ _
  rw [View.set_slice_whole, Rect.mem_set_unit]
  exact Iff.rfl

/-- Row `r`, column `s` lies in the block of the point with block row `r / 512` and block column `s / 1024`. -/
theorem cover0 (i : S16384x3072.Idx) : ∃ t : Fin cfg0.N, (cfg0.win 2).flush t = true ∧ i ∈ ((cfg0.win 2).blk t).view.set := by
  have hi0 : (i 0).val < 16384 := (i 0).isLt
  have hi1 : (i 1).val < 3072 := (i 1).isLt
  obtain ⟨t, ht⟩ := idx_onto0 ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The array the first region leaves: the product of its two operands as it found them. -/
theorem arr0 (c : Dev nD) : (dat0 V c).arrAt 2 cfg0.N = Cert.Spec.mmT (V c main_v0) (V c main_arg1) :=
  (dat0 V c).arrAt_eq_of_cover 2 _ (fun t _ => flushed0 V c t) cover0

end Cert.KernelIdeal.Proj

end
-- ==== Proof.Region1.lean ====
/-
  The output projection, read as a value. At any contents `V` of the buffers when the region is entered, the array the
  32 points write is the product of the `[16384, 1024]` operand with the transpose of the `[1024, 1024]` weight, plus the
  bias row on every row: point `i` loads rows `512·i …` of the operand, the whole weight and the whole bias row, and
  writes rows `512·i …` of the result; the blocks tile the array.
-/
import proofs.«167248_j4767413698818_1_alg».proof.Proof.Gen.KernelIdeal.Frame
import proofs.«167248_j4767413698818_1_alg».proof.Proof.Spec
import proofs.«167248_j4767413698818_1_alg».proof.Proof.ProjBody

set_option maxRecDepth 16384

noncomputable section

namespace Cert.KernelIdeal.Proj

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The operand, the weight and the bias row as the region finds them, at their literal types. -/
abbrev opnd1 (c : Dev nD) : FVec Ideal S16384x1024 .f32 := V c main_v29
abbrev wght1 (c : Dev nD) : FVec Ideal S1024x1024 .f32 := V c main_arg2
abbrev bias1 (c : Dev nD) : FVec Ideal S1x1024 .f32 := V c main_v30

/-- The index maps over the 32 points: the operand's block row is the output's; the weight and the bias row are read
    whole at every point; nothing moves along the second axis. -/
theorem idx_facts1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

/-- Every block row of the result is some point's. -/
theorem idx_onto1 : ∀ (q0 : Fin 32), ∃ t : Fin cfg1.N, win1_3.index t = ![q0.val, 0] :=
  (by decide +kernel : ∀ (q0 : Fin 32), ∃ t : Fin grid1.N, win1_3.index t = ![q0.val, 0])

/-- What point `t` writes back is block `t` of the biased product of the three arrays as the region finds them. -/
theorem flushed1 (c : Dev nD) (t : Fin cfg1.N) :
    (dat1 V c).flushed 3 t = ((cfg1.win 3).blk t).view.read (Elt Ideal) (Cert.Spec.mmTb (V c main_v29) (V c main_arg2) (V c main_v30)) := by
  show (cfg1.win 3).cut (grid1.coords t) ((dat1 V c).after 3 t) = _
  rw [after1_3]
  unfold out1_3
  rw [View.canon_unit_zero hz]
  simp only [View.ld_unit_zero (S := S512x1024) hz, View.ld_unit_zero (S := S1024x1024) hz, View.ld_unit_zero (S := S1x1024) hz]
  obtain ⟨e0, e1, e2, e3, e4, e5, e6⟩ := idx_facts1 t
  funext j
  obtain ⟨p, q, rfl⟩ : ∃ (p : Fin 512) (q : Fin 1024), j = ix2 p q := ⟨j 0, j 1, eq_ix2 j⟩
  show k1_pay1 (iblk1 V c 0 t) (iblk1 V c 1 t) (iblk1 V c 2 t) (ix2 p q) = Cert.Spec.mmTb (V c main_v29) (V c main_arg2) (V c main_v30) (((cfg1.win 3).blk t).view.emb (ix2 p q))
  refine (pay1_apply _ _ _ p q).trans ?_
  unfold Cert.Spec.mmTb Cert.Spec.mmT
  have h2 : ((cfg1.win 2).blk t).view.emb (ix2 (0 : Fin 1) q) = ix2 (n0 := 1) (n1 := 1024) (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 1024 + 1 * q.val = win1_3.index t (1 : Fin 2) * 1024 + 1 * q.val; omega
  refine congrArg₂ (· + ·) (Finset.sum_congr rfl fun k _ => ?_) ?_
  · have h0 : ((cfg1.win 0).blk t).view.emb (ix2 p k) = ix2 (n0 := 16384) (n1 := 1024) ((((cfg1.win 3).blk t).view.emb (ix2 p q)) 0) k := by
      funext a; apply Fin.ext
      match a with
      | ⟨0, _⟩ => show win1_0.index t (0 : Fin 2) * 512 + 1 * p.val = win1_3.index t (0 : Fin 2) * 512 + 1 * p.val; omega
      | ⟨1, _⟩ => show win1_0.index t (1 : Fin 2) * 1024 + 1 * k.val = k.val; omega
    have h1 : ((cfg1.win 1).blk t).view.emb (ix2 q k) = ix2 (n0 := 1024) (n1 := 1024) ((((cfg1.win 3).blk t).view.emb (ix2 p q)) 1) k := by
      funext a; apply Fin.ext
      match a with
      | ⟨0, _⟩ => show win1_1.index t (0 : Fin 2) * 1024 + 1 * q.val = win1_3.index t (1 : Fin 2) * 1024 + 1 * q.val; omega
      | ⟨1, _⟩ => show win1_1.index t (1 : Fin 2) * 1024 + 1 * k.val = k.val; omega
    show opnd1 V c (((cfg1.win 0).blk t).view.emb (ix2 p k)) * wght1 V c (((cfg1.win 1).blk t).view.emb (ix2 q k)) = opnd1 V c _ * wght1 V c _
    rw [h0, h1]
  · show bias1 V c (((cfg1.win 2).blk t).view.emb (ix2 (0 : Fin 1) q)) = bias1 V c _
    rw [h2]

/-- An index of the result array is in point `t`'s block iff each coordinate is in the block's range. -/
theorem mem_blk1 (t : Fin cfg1.N) (i : S16384x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v31).slice (win1_3.rect t)).set ↔ _
  rw [View.set_slice_whole, Rect.mem_set_unit]
  exact Iff.rfl

/-- Row `r` lies in the block of the point with block row `r / 512`. -/
theorem cover1 (i : S16384x1024.Idx) : ∃ t : Fin cfg1.N, (cfg1.win 3).flush t = true ∧ i ∈ ((cfg1.win 3).blk t).view.set := by
  have hi0 : (i 0).val < 16384 := (i 0).isLt
  have hi1 : (i 1).val < 1024 := (i 1).isLt
  obtain ⟨t, ht⟩ := idx_onto1 ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- The array the second region leaves: the biased product of its three operands as it found them. -/
theorem arr1 (c : Dev nD) : (dat1 V c).arrAt 3 cfg1.N = Cert.Spec.mmTb (V c main_v29) (V c main_arg2) (V c main_v30) :=
  (dat1 V c).arrAt_eq_of_cover 3 _ (fun t _ => flushed1 V c t) cover1

end Cert.KernelIdeal.Proj

end
-- ==== Proof.Glue.lean ====
/-
  The chain of host operations between the two projections, as ONE function of the scale scalar and the projected
  array: split the `[4, 4096, 3072]` array into three `[4, 4096, 1024]` thirds, re-lay each as `[4, 4096, 16, 64]`
  (reshape to `[4, 16, 4096, 64]`, swap the middle axes), take the `16 × 16` scores of the first two over the last axis,
  multiply by the scale, soften along the last axis (subtract the row maximum, exponentiate, divide by the row sum), apply
  to the third, and undo the re-laying. Both programs run exactly this chain; they differ only in how the scale is spelled
  and in what they feed it, so the chain is never opened.
-/
import proofs.«167248_j4767413698818_1_alg».proof.KernelIdeal

noncomputable section

namespace Cert.Glue

open Cert.KernelIdeal Idealize.ShloMosaic
open Cert.KernelIdeal.Facts₀

variable {F : FTy → Type} [FloatOps F] [Cert.KernelIdeal.Facts]

/-- The attention glue: from the scale `s` and the projected array `qkv` to the `[4, 4096, 1024]` array the output
    projection reads. -/
def mid (s : FVec F S_ .f32) (qkv : FVec F S4x4096x3072 .f32) : FVec F S4x4096x1024 .f32 :=
  let q := transpose S4x4096x16x64 [0, 2, 1, 3] (shapeCast S4x16x4096x64 (extractStridedSlice S4x4096x1024 ![0, 0, 0] qkv slices_S4x4096x3072_S4x4096x1024_0_0_0) shapeCasts_S4x4096x1024_S4x16x4096x64) transposes_S4x16x4096x64_S4x4096x16x64_0_2_1_3
  let k := transpose S4x4096x16x64 [0, 2, 1, 3] (shapeCast S4x16x4096x64 (extractStridedSlice S4x4096x1024 ![0, 0, 1024] qkv slices_S4x4096x3072_S4x4096x1024_0_0_1024) shapeCasts_S4x4096x1024_S4x16x4096x64) transposes_S4x16x4096x64_S4x4096x16x64_0_2_1_3
  let v := transpose S4x4096x16x64 [0, 2, 1, 3] (shapeCast S4x16x4096x64 (extractStridedSlice S4x4096x1024 ![0, 0, 2048] qkv slices_S4x4096x3072_S4x4096x1024_0_0_2048) shapeCasts_S4x4096x1024_S4x16x4096x64) transposes_S4x16x4096x64_S4x4096x16x64_0_2_1_3
  let sc := mulf (Host.dotGeneral dot_S4x4096x16x64_S4x4096x16x64_S4x4096x16x16_3_3_2_2_01_01 none q k) (broadcastInDim S4x4096x16x16 ![] bcast_S_S4x4096x16x16 s)
  let mx := maximumf (broadcastInDim S4x4096x16 ![] bcast_S_S4x4096x16 (constant S_ .f32 0xFF800000#32)) (Host.reduce FloatOps.maximumf sc (constant S_ .f32 0xFF800000#32) reducesTo_S4x4096x16x16_S4x4096x16_d3 h_S_)
  let ex := Host.exp (subf sc (broadcastInDim S4x4096x16x16 ![0, 1, 2, 3] bcast_S4x4096x16x1_S4x4096x16x16_0_1_2_3 (broadcastInDim S4x4096x16x1 ![0, 1, 2] bcast_S4x4096x16_S4x4096x16x1_0_1_2 mx)))
  let sm := Host.reduceAdd ex (constant S_ .f32 0x00000000#32) reducesTo_S4x4096x16x16_S4x4096x16_d3 h_S_
  let pr := Host.divf ex (broadcastInDim S4x4096x16x16 ![0, 1, 2, 3] bcast_S4x4096x16x1_S4x4096x16x16_0_1_2_3 (broadcastInDim S4x4096x16x1 ![0, 1, 2] bcast_S4x4096x16_S4x4096x16x1_0_1_2 sm))
  shapeCast S4x4096x1024 (transpose S4x16x4096x64 [0, 2, 1, 3] (Host.dotGeneral dot_S4x4096x16x16_S4x4096x16x64_S4x4096x16x64_3_2_2_3_01_01 none pr v) transposes_S4x4096x16x64_S4x16x4096x64_0_2_1_3) shapeCasts_S4x16x4096x64_S4x4096x1024

end Cert.Glue

end
-- ==== Proof.Whole.lean ====
/-
  The kernel's whole computation as ONE function of the four argument arrays: flatten `x` to `[16384, 1024]`, project with
  the rows of `w_qkv`, restore the batch axis, run the attention glue at the scale `0.125`, flatten again, project with the
  rows of `w_fc` and add the bias row, restore the batch axis.
-/
import proofs.«167248_j4767413698818_1_alg».proof.Proof.Glue
import proofs.«167248_j4767413698818_1_alg».proof.Proof.Spec

noncomputable section

namespace Cert.Whole

open Cert.KernelIdeal Idealize.ShloMosaic
open Cert.KernelIdeal.Facts₀

variable [Cert.KernelIdeal.Facts]

/-- What the kernel's program computes from `x`, `w_qkv`, `w_fc` and `b_fc` on the extended reals. -/
def kernelValue (x : FVec Ideal S4x4096x1024 .f32) (wq : FVec Ideal S3072x1024 .f32) (wf : FVec Ideal S1024x1024 .f32) (b : FVec Ideal S1024 .f32) :
    FVec Ideal S4x4096x1024 .f32 :=
  shapeCast S4x4096x1024
    (Cert.Spec.mmTb
      (shapeCast S16384x1024
        (Cert.Glue.mid (constant S_ .f32 0x3E000000#32)
          (shapeCast S4x4096x3072 (Cert.Spec.mmT (shapeCast S16384x1024 x shapeCasts_S4x4096x1024_S16384x1024) wq) shapeCasts_S16384x3072_S4x4096x3072))
        shapeCasts_S4x4096x1024_S16384x1024)
      wf (shapeCast S1x1024 b shapeCasts_S1024_S1x1024))
    shapeCasts_S16384x1024_S4x4096x1024

end Cert.Whole

end
-- ==== Proof.KernelValue.lean ====
/-
  The kernel's result buffer, read back through the run. The buffer contents at each boundary of the program are a fold
  from the launch memory; walking it backwards from the result:
  the last host operation restores the batch axis of the second region's array; that array is the biased rows-by-rows
  product of what the second region found (its value module); what it found is, in order, the flattened output of the
  attention glue applied to the first region's array with the batch axis restored, the weight `w_fc` untouched since
  launch, and the bias as a one-row array; the first region's array is the rows-by-rows product of the flattened `x`
  and `w_qkv` (its value module). Composed, that is `Whole.kernelValue` of the four arguments.
-/
import proofs.«167248_j4767413698818_1_alg».proof.Proof.Region0
import proofs.«167248_j4767413698818_1_alg».proof.Proof.Region1
import proofs.«167248_j4767413698818_1_alg».proof.Proof.Whole

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first region: `x` is flattened, nothing else is written -/

theorem W1_v0 (c : Dev nD) : W1 m ρ c (Proc.devRef .tc main_v0)
    = shapeCast S16384x1024 (m ((c : Thread nD τ).loc main_arg0)) shapeCasts_S4x4096x1024_S16384x1024 := by
  show StableHlo.after hostOps0 (W0 m ρ c) (Proc.devRef .tc main_v0) = _
  after_results
  all_goals rfl

theorem W1_arg1 (c : Dev nD) : W1 m ρ c (Proc.devRef .tc main_arg1) = m ((c : Thread nD τ).loc main_arg1) := by
  show StableHlo.after hostOps0 (W0 m ρ c) (Proc.devRef .tc main_arg1) = _
  after_results
  all_goals rfl

theorem W1_arg2 (c : Dev nD) : W1 m ρ c (Proc.devRef .tc main_arg2) = m ((c : Thread nD τ).loc main_arg2) := by
  show StableHlo.after hostOps0 (W0 m ρ c) (Proc.devRef .tc main_arg2) = _
  after_results
  all_goals rfl

theorem W1_arg3 (c : Dev nD) : W1 m ρ c (Proc.devRef .tc main_arg3) = m ((c : Thread nD τ).loc main_arg3) := by
  show StableHlo.after hostOps0 (W0 m ρ c) (Proc.devRef .tc main_arg3) = _
  after_results
  all_goals rfl

/-! ## The first region -/

/-- The first region leaves in its result array the product of the flattened `x` with the rows of `w_qkv`. -/
theorem W2_v1 (c : Dev nD) : W2 m ρ c (Proc.devRef .tc main_v1)
    = Cert.Spec.mmT (M := 16384) (K := 1024) (N := 3072)
        (shapeCast S16384x1024 (m ((c : Thread nD τ).loc main_arg0)) shapeCasts_S4x4096x1024_S16384x1024) (m ((c : Thread nD τ).loc main_arg1)) := by
  refine (W2_arr m ρ c 2).trans ((Proj.arr0 (V1 m ρ) c).trans ?_)
  show Cert.Spec.mmT (M := 16384) (K := 1024) (N := 3072) (W1 m ρ c (Proc.devRef .tc main_v0)) (W1 m ρ c (Proc.devRef .tc main_arg1)) = _
  rw [W1_v0, W1_arg1]

theorem W2_arg2 (c : Dev nD) : W2 m ρ c (Proc.devRef .tc main_arg2) = m ((c : Thread nD τ).loc main_arg2) :=
  (W2_of_ne m ρ c main_arg2 (by decide)).trans (W1_arg2 m ρ c)

theorem W2_arg3 (c : Dev nD) : W2 m ρ c (Proc.devRef .tc main_arg3) = m ((c : Thread nD τ).loc main_arg3) :=
  (W2_of_ne m ρ c main_arg3 (by decide)).trans (W1_arg3 m ρ c)

/-! ## Between the regions: the attention glue, and the bias as a one-row array -/

set_option maxHeartbeats 2000000 in
/-- The second region's operand is the flattened glue output of the first region's array with its batch axis restored. -/
theorem W3_v29 (c : Dev nD) : W3 m ρ c (Proc.devRef .tc main_v29)
    = shapeCast S16384x1024 (Cert.Glue.mid (F := Ideal) (constant S_ .f32 0x3E000000#32)
        (shapeCast S4x4096x3072 (W2 m ρ c (Proc.devRef .tc main_v1)) shapeCasts_S16384x3072_S4x4096x3072)) shapeCasts_S4x4096x1024_S16384x1024 := by
  show StableHlo.after hostOps1 (W2 m ρ c) (Proc.devRef .tc main_v29) = _
  after_results_simp
  all_goals rfl

theorem W3_v30 (c : Dev nD) : W3 m ρ c (Proc.devRef .tc main_v30)
    = shapeCast S1x1024 (W2 m ρ c (Proc.devRef .tc main_arg3)) shapeCasts_S1024_S1x1024 := by
  show StableHlo.after hostOps1 (W2 m ρ c) (Proc.devRef .tc main_v30) = _
  after_results
  all_goals rfl

theorem W3_arg2 (c : Dev nD) : W3 m ρ c (Proc.devRef .tc main_arg2) = W2 m ρ c (Proc.devRef .tc main_arg2) := by
  show StableHlo.after hostOps1 (W2 m ρ c) (Proc.devRef .tc main_arg2) = _
  after_results
  all_goals rfl

/-! ## The second region and the last reshape -/

/-- The second region leaves in its result array the biased product of what it found. -/
theorem W4_v31 (c : Dev nD) : W4 m ρ c (Proc.devRef .tc main_v31)
    = Cert.Spec.mmTb (M := 16384) (K := 1024) (N := 1024) (W3 m ρ c (Proc.devRef .tc main_v29)) (W3 m ρ c (Proc.devRef .tc main_arg2)) (W3 m ρ c (Proc.devRef .tc main_v30)) :=
  (W4_arr m ρ c 3).trans (Proj.arr1 (V3 m ρ) c)

theorem W5_v32 (c : Dev nD) : W5 m ρ c (Proc.devRef .tc main_v32)
    = shapeCast S4x4096x1024 (W4 m ρ c (Proc.devRef .tc main_v31)) shapeCasts_S16384x1024_S4x4096x1024 := by
  show StableHlo.after hostOps2 (W4 m ρ c) (Proc.devRef .tc main_v32) = _
  after_results
  all_goals rfl

/-- THE RESULT: the buffer the program returns holds `Whole.kernelValue` of the four arguments as launched. -/
theorem result (c : Dev nD) : W5 m ρ c (Proc.devRef .tc main_v32)
    = Cert.Whole.kernelValue (m ((c : Thread nD τ).loc main_arg0)) (m ((c : Thread nD τ).loc main_arg1))
        (m ((c : Thread nD τ).loc main_arg2)) (m ((c : Thread nD τ).loc main_arg3)) := by
  rw [W5_v32, W4_v31, W3_v29, W3_v30, W3_arg2, W2_v1, W2_arg2, W2_arg3]
  rfl

end Cert.KernelIdeal.Fold

end
-- ==== Proof.RefValue.lean ====
/-
  The reference computes the kernel's function. Three facts join the two sides:
  * the reference's chain of host operations between its two projections IS the attention glue, at the scale it spells
    `1 / sqrt 64` (the same operations in the same order);
  * its first projection, a contraction of the last axes of `x : [4, 4096, 1024]` and `w_qkv : [3072, 1024]`, is the
    rows-by-rows product of the flattened `x` read back at `[4, 4096, 3072]`: row `b·4096 + n` of the flat array is row
    `(b, n)` of `x`;
  * its output projection plus the bias broadcast is, entry by entry, the biased rows-by-rows product of the flattened
    glue output, read back at `[4, 4096, 1024]`.
  With `1 / sqrt 64 = 0.125` the two programs are one function of the four arguments.
-/
import proofs.«167248_j4767413698818_1_alg».proof.Proof.Gen.ReferenceIdeal.Read
import proofs.«167248_j4767413698818_1_alg».proof.Proof.Whole
import proofs.«167248_j4767413698818_1_alg».proof.Proof.Gen.KernelIdeal

set_option maxRecDepth 16384

noncomputable section

namespace Cert.ReferenceIdeal.RefValue

open Cert.ReferenceIdeal Cert.ReferenceIdeal.Gen Cert.ReferenceIdeal.Read Idealize.ShloMosaic Idealize.ShloMosaic.ValueIdx
open scoped BigOperators

/-- The reference's host chain from its first projection to the operand of its second is the attention glue at its own
    spelling of the scale. -/
theorem glue_eq (x : FVec Ideal S4x4096x1024 .f32) (w : FVec Ideal S3072x1024 .f32) :
    val_main_v28 (F := Ideal) x w
      = Cert.Glue.mid (F := Ideal) (Host.divf (constant S_ .f32 0x3F800000#32) (Host.sqrt (constant S_ .f32 0x42800000#32))) (val_main_v0 (F := Ideal) x w) := rfl

/-- Row `b·4096 + n` of a flat `[16384, K]`-shaped array is row `(b, n)` of the `[4, 4096, K]` array it flattens. -/
theorem flat_row {K : Nat} (b : Fin 4) (n : Fin 4096) (k : Fin K) (hr : b.val * 4096 + n.val < 16384) :
    ((⟨2, ![16384, K]⟩ : Shape).rowMajor (ix2 ⟨b.val * 4096 + n.val, hr⟩ k)).val = ((⟨3, ![4, 4096, K]⟩ : Shape).rowMajor (ix3 b n k)).val := by
  rw [Shape.rowMajor_val_two, Shape.rowMajor_val_three]; rfl

/-- The first projection: the flattened rows-by-rows product read back with the batch axis is the reference's contraction. -/
theorem first_proj (x : FVec Ideal S4x4096x1024 .f32) (w : FVec Ideal S3072x1024 .f32) :
    shapeCast S4x4096x3072 (Cert.Spec.mmT (shapeCast Cert.KernelIdeal.S16384x1024 x Cert.KernelIdeal.Gen.shapeCasts_S4x4096x1024_S16384x1024) w)
        Cert.KernelIdeal.Gen.shapeCasts_S16384x3072_S4x4096x3072
      = val_main_v0 (F := Ideal) x w := by
  funext i
  obtain ⟨b, n, e, rfl⟩ : ∃ (b : Fin 4) (n : Fin 4096) (e : Fin 3072), i = ix3 b n e := ⟨i 0, i 1, i 2, eq_ix3 i⟩
  have hr : b.val * 4096 + n.val < 16384 := by have := b.isLt; have := n.isLt; omega
  rw [val_main_v0_apply]
  refine (shapeCast_apply _ _ (ix3 b n e) (ix2 ⟨b.val * 4096 + n.val, hr⟩ e) (flat_row b n e hr)).trans ?_
  rw [Cert.Spec.mmT_apply]
  refine Finset.sum_congr rfl fun k _ => ?_
  have el : lidx_main_v0 (ix3 b n e) k = ix3 b n k := funext fun a => Fin.ext (by match a with | ⟨0, _⟩ => rfl | ⟨1, _⟩ => rfl | ⟨2, _⟩ => rfl)
  have er : ridx_main_v0 (ix3 b n e) k = ix2 e k := funext fun a => Fin.ext (by match a with | ⟨0, _⟩ => rfl | ⟨1, _⟩ => rfl)
  rw [el, er]
  exact congrArg (· * w (ix2 e k)) (shapeCast_apply x _ (ix2 ⟨b.val * 4096 + n.val, hr⟩ k) (ix3 b n k) (flat_row b n k hr).symm)

/-- The two programs compute one function of the four argument arrays. -/
theorem kernel_eq_ref (x : FVec Ideal S4x4096x1024 .f32) (wq : FVec Ideal S3072x1024 .f32) (wf : FVec Ideal S1024x1024 .f32) (b : FVec Ideal S1024 .f32) :
    Cert.Whole.kernelValue x wq wf b = val_main_v32 (F := Ideal) x wq wf b := by
  unfold Cert.Whole.kernelValue
  rw [first_proj, ← Cert.Spec.scale_eq, ← glue_eq]
  funext i
  obtain ⟨bb, n, e, rfl⟩ : ∃ (bb : Fin 4) (n : Fin 4096) (e : Fin 1024), i = ix3 bb n e := ⟨i 0, i 1, i 2, eq_ix3 i⟩
  have hr : bb.val * 4096 + n.val < 16384 := by have := bb.isLt; have := n.isLt; omega
  rw [val_main_v32_apply, val_main_v29_apply, val_main_v31_apply, val_main_v30_apply]
  generalize val_main_v28 (F := Ideal) x wq = A
  refine (shapeCast_apply _ _ (ix3 bb n e) (ix2 ⟨bb.val * 4096 + n.val, hr⟩ e) (flat_row bb n e hr)).trans ?_
  rw [Cert.Spec.mmTb_apply]
  show _ = (∑ k : Fin 1024, A (lidx_main_v29 (ix3 bb n e) k) * wf (ridx_main_v29 (ix3 bb n e) k)) + b (idx_main_v30 (idx_main_v31 (ix3 bb n e)))
  refine congrArg₂ (· + ·) (Finset.sum_congr rfl fun k _ => ?_) ?_
  · have el : lidx_main_v29 (ix3 bb n e) k = ix3 bb n k := funext fun a => Fin.ext (by match a with | ⟨0, _⟩ => rfl | ⟨1, _⟩ => rfl | ⟨2, _⟩ => rfl)
    have er : ridx_main_v29 (ix3 bb n e) k = ix2 e k := funext fun a => Fin.ext (by match a with | ⟨0, _⟩ => rfl | ⟨1, _⟩ => rfl)
    rw [el, er]
    exact congrArg (· * wf (ix2 e k)) (shapeCast_apply A _ (ix2 ⟨bb.val * 4096 + n.val, hr⟩ k) (ix3 bb n k) (flat_row bb n k hr).symm)
  · refine shapeCast_apply b _ (ix2 (0 : Fin 1) e) (idx_main_v30 (idx_main_v31 (ix3 bb n e))) ?_
    rw [Shape.rowMajor_val_two, Shape.rowMajor_val_one]
    show e.val = 0 * 1024 + e.val
    omega

end Cert.ReferenceIdeal.RefValue

end
-- ==== Proof.lean ====
/-
  Two projections around a small attention, against the einsum reference, over the extended reals.

  The kernel's program flattens `x : [4, 4096, 1024]` to `[16384, 1024]`, multiplies it by the rows of `w_qkv` in a
  `32 × 3` grid of `512 × 1024` blocks, runs the per-token `16 × 16` head-mixing attention as host operations at the
  literal scale `0.125`, and multiplies the result by the rows of `w_fc`, adding the bias, in 32 row blocks. The reference
  does the two projections as contractions of the last axes without flattening, spells the scale `1 / sqrt 64`, and adds
  the bias by a broadcast. On the extended reals the matrix unit's product into a zero block and the host's contraction are
  the same sum, the casts to the narrow float format are the identity, flattening the leading axes only renames rows,
  `sqrt 64 = 8` and `1 / 8 = 0.125`; the attention between the projections is the same chain of operations on both
  sides and is carried as one function. So both programs end with one function of the four arguments in the result.
  No finiteness of the inputs is needed: the two sides are the same sums in the same order.
-/
import proofs.«167248_j4767413698818_1_alg».proof.Defs
import proofs.«167248_j4767413698818_1_alg».proof.Proof.Gen.Kernel.Frame
import proofs.«167248_j4767413698818_1_alg».proof.Proof.Gen.KernelIdeal.Frame
import proofs.«167248_j4767413698818_1_alg».proof.Proof.Gen.Pre_finite_inputs
import proofs.«167248_j4767413698818_1_alg».proof.Proof.KernelIdealRun
import proofs.«167248_j4767413698818_1_alg».proof.Proof.KernelValue
import proofs.«167248_j4767413698818_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with `Whole.kernelValue` of the arguments in the result: the kernel's by reading its run
    back through the two regions, the reference's because its composed term is that function. -/
theorem algebraic : Cert.algebraic_KernelIdeal_ReferenceIdeal := by
  intro m ρ m' ρ' _ hagree
  refine ⟨fun c => Cert.Whole.kernelValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Fold.result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, (hagree c).1, (hagree c).2.1, (hagree c).2.2.1, (hagree c).2.2.2]
    exact (Cert.ReferenceIdeal.RefValue.kernel_eq_ref _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
